-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x1024 : Shape := ⟨3, ![2, 4096, 1024]⟩
abbrev S1024x1024 : Shape := ⟨2, ![1024, 1024]⟩
abbrev S1024 : Shape := ⟨1, ![1024]⟩
abbrev S16x1024 : Shape := ⟨2, ![16, 1024]⟩
abbrev S16 : Shape := ⟨1, ![16]⟩
abbrev S1024x16 : Shape := ⟨2, ![1024, 16]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S16x1024 : S_.BroadcastsInDim S16x1024 (![] : Fin 0 → Fin S16x1024.rank)
  reducesTo_S16x1024_S_d0_1 : S16x1024.ReducesTo [0, 1] S_
  bcast_S_S16 : S_.BroadcastsInDim S16 (![] : Fin 0 → Fin S16.rank)
  reducesTo_S16_S_d0 : S16.ReducesTo [0] S_
  bcast_S_S1024x16 : S_.BroadcastsInDim S1024x16 (![] : Fin 0 → Fin S1024x16.rank)
  reducesTo_S1024x16_S_d0_1 : S1024x16.ReducesTo [0, 1] S_

variable [Facts]

def fn_part2 {F : FTy → Type} [FloatOps F] (main_arg7 : FVec F S1024x16 .f32) (main_v33 : IVec S_ 1) : IVec S_ 1 :=
  let main_v34 : FVec F S1024x16 .f32 := Host.absf main_arg7
  let main_cst_12 : FVec F S_ .f32 := constant S_ .f32 0x7F800000#32
  let main_v35 : FVec F S1024x16 .f32 := broadcastInDim S1024x16 ![] bcast_S_S1024x16 main_cst_12
  let main_v36 : IVec S1024x16 1 := cmpf .olt main_v34 main_v35
  let main_c_13 : IVec S_ 1 := constantI S_ 1 1#1
  let main_v37 : IVec S_ 1 := (fun x v => Host.reduce IntOp.andi x v reducesTo_S1024x16_S_d0_1 h_S_) main_v36 main_c_13
  let main_v38 : IVec S_ 1 := andi main_v33 main_v37
  main_v38

def fn_part1 {F : FTy → Type} [FloatOps F] (main_arg4 : FVec F S16 .f32) (main_arg5 : FVec F S16x1024 .f32) (main_arg6 : FVec F S16 .f32) (main_arg7 : FVec F S1024x16 .f32) (main_v13 : IVec S_ 1) (main_v16 : IVec S16x1024 1) : IVec S_ 1 :=
  let main_c_5 : IVec S_ 1 := constantI S_ 1 1#1
  let main_v17 : IVec S_ 1 := (fun x v => Host.reduce IntOp.andi x v reducesTo_S16x1024_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x1024 .f32 := Host.absf main_arg5
  let main_cst_8 : FVec F S_ .f32 := constant S_ .f32 0x7F800000#32
  let main_v25 : FVec F S16x1024 .f32 := broadcastInDim S16x1024 ![] bcast_S_S16x1024 main_cst_8
  let main_v26 : IVec S16x1024 1 := cmpf .olt main_v24 main_v25
  let main_c_9 : IVec S_ 1 := constantI S_ 1 1#1
  let main_v27 : IVec S_ 1 := (fun x v => Host.reduce IntOp.andi x v reducesTo_S16x1024_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_v33

def fn {F : FTy → Type} [FloatOps F] (main_arg0 : FVec F S2x4096x1024 .f32) (main_arg1 : FVec F S1024x1024 .f32) (main_arg2 : FVec F S1024 .f32) (main_arg3 : FVec F S16x1024 .f32) (main_arg4 : FVec F S16 .f32) (main_arg5 : FVec F S16x1024 .f32) (main_arg6 : FVec F S16 .f32) (main_arg7 : FVec F S1024x16 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S16x1024 .f32 := Host.absf main_arg3
  let main_cst_4 : FVec F S_ .f32 := constant S_ .f32 0x7F800000#32
  let main_v15 : FVec F S16x1024 .f32 := broadcastInDim S16x1024 ![] bcast_S_S16x1024 main_cst_4
  let main_v16 : IVec S16x1024 1 := cmpf .olt main_v14 main_v15
  fn_part1 (F := F) main_arg4 main_arg5 main_arg6 main_arg7 main_v13 main_v16
-- ==== Kernel.lean ====
abbrev S2x4096x1024 : Shape := ⟨3, ![2, 4096, 1024]⟩
abbrev S1024x1024 : Shape := ⟨2, ![1024, 1024]⟩
abbrev S1024 : Shape := ⟨1, ![1024]⟩
abbrev S16x1024 : Shape := ⟨2, ![16, 1024]⟩
abbrev S16 : Shape := ⟨1, ![16]⟩
abbrev S1024x16 : Shape := ⟨2, ![1024, 16]⟩
abbrev S8192x1024 : Shape := ⟨2, ![8192, 1024]⟩
abbrev S1x1024 : Shape := ⟨2, ![1, 1024]⟩
abbrev S1x16 : Shape := ⟨2, ![1, 16]⟩
abbrev S512x1024 : Shape := ⟨2, ![512, 1024]⟩
abbrev S512x16 : Shape := ⟨2, ![512, 16]⟩
abbrev S512 : Shape := ⟨1, ![512]⟩
abbrev S512x1 : Shape := ⟨2, ![512, 1]⟩

abbrev nBuf : Space → Nat
  | .hbm => 17
  | .vmem => 10
  | .smem => 0
  | _ => 0

abbrev bufTy : (tb : Table) → Fin (tcTables nBuf tb) → BufTy
  | .hbm, ⟨0, _⟩ => ⟨S2x4096x1024, .f32⟩
  | .hbm, ⟨1, _⟩ => ⟨S1024x1024, .f32⟩
  | .hbm, ⟨2, _⟩ => ⟨S1024, .f32⟩
  | .hbm, ⟨3, _⟩ => ⟨S16x1024, .f32⟩
  | .hbm, ⟨4, _⟩ => ⟨S16, .f32⟩
  | .hbm, ⟨5, _⟩ => ⟨S16x1024, .f32⟩
  | .hbm, ⟨6, _⟩ => ⟨S16, .f32⟩
  | .hbm, ⟨7, _⟩ => ⟨S1024x16, .f32⟩
  | .hbm, ⟨8, _⟩ => ⟨S8192x1024, .f32⟩
  | .hbm, ⟨9, _⟩ => ⟨S1024x1024, .f32⟩
  | .hbm, ⟨10, _⟩ => ⟨S1024x16, .f32⟩
  | .hbm, ⟨11, _⟩ => ⟨S1024x16, .f32⟩
  | .hbm, ⟨12, _⟩ => ⟨S1x1024, .f32⟩
  | .hbm, ⟨13, _⟩ => ⟨S1x16, .f32⟩
  | .hbm, ⟨14, _⟩ => ⟨S1x16, .f32⟩
  | .hbm, ⟨15, _⟩ => ⟨S8192x1024, .f32⟩
  | .hbm, ⟨16, _⟩ => ⟨S2x4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1x1024, .f32⟩
  | .local _ .vmem, ⟨4, _⟩ => ⟨S1024x16, .f32⟩
  | .local _ .vmem, ⟨5, _⟩ => ⟨S1x16, .f32⟩
  | .local _ .vmem, ⟨6, _⟩ => ⟨S1024x16, .f32⟩
  | .local _ .vmem, ⟨7, _⟩ => ⟨S1x16, .f32⟩
  | .local _ .vmem, ⟨8, _⟩ => ⟨S512x1024, .f32⟩
  | .local _ .vmem, ⟨9, _⟩ => ⟨S512x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S2x4096x1024_S8192x1024 : S2x4096x1024.ShapeCasts S8192x1024
  transposes_S1024x1024_S1024x1024_1_0 : S1024x1024.Transposes [1, 0] S1024x1024
  transposes_S16x1024_S1024x16_1_0 : S16x1024.Transposes [1, 0] S1024x16
  shapeCasts_S1024_S1x1024 : S1024.ShapeCasts S1x1024
  shapeCasts_S16_S1x16 : S16.ShapeCasts S1x16
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S512x16 : S1x16.Broadcasts S512x16
  reduces_S512x16_S512 : S512x16.Reduces [1] S512
  shapeCasts_S512_S512x1 : S512.ShapeCasts S512x1
  broadcasts_S512x1_S512x1024 : S512x1.Broadcasts S512x1024
  shapeCasts_S8192x1024_S2x4096x1024 : S8192x1024.ShapeCasts S2x4096x1024
  dot_S512x1024_S1024x1024_S512x1024_1_0_0_1_n_n_wf : DotDims.WF S512x1024 S1024x1024 S512x1024 [1] [0] [0] [1] [] []
  dot_S512x1024_S1024x16_S512x16_1_0_0_1_n_n_wf : DotDims.WF S512x1024 S1024x16 S512x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S1024x16.size a
  hwx0_3 : ∀ i : grid0.Coords, EltTy.bits .f32 = 32 ∨ (Rect.block (s := S1024x16) S1024x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x16.size a ≤ S1024x16.size a
  hwx0_5 : ∀ i : grid0.Coords, EltTy.bits .f32 = 32 ∨ (Rect.block (s := S1024x16) S1024x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .f32 = 32 ∨ (Rect.block (s := S8192x1024) S512x1024.size (cc0_transform_7 i) (hinb0_7 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x16_S512x16_1_0_0_1_n_n : DotDims S512x1024 S1024x16 S512x16 where
  lhsContracting := [1]
  rhsContracting := [0]
  lhsNonContracting := [0]
  rhsNonContracting := [1]
  lhsBatch := []
  rhsBatch := []
  wf := dot_S512x1024_S1024x16_S512x16_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2x4096x1024 : Shape := ⟨3, ![2, 4096, 1024]⟩
abbrev S1024x1024 : Shape := ⟨2, ![1024, 1024]⟩
abbrev S1024 : Shape := ⟨1, ![1024]⟩
abbrev S16x1024 : Shape := ⟨2, ![16, 1024]⟩
abbrev S16 : Shape := ⟨1, ![16]⟩
abbrev S1024x16 : Shape := ⟨2, ![1024, 16]⟩
abbrev S2x4096x16 : Shape := ⟨3, ![2, 4096, 16]⟩
abbrev S1x1x16 : Shape := ⟨3, ![1, 1, 16]⟩
abbrev S1x1x1024 : Shape := ⟨3, ![1, 1, 1024]⟩
abbrev S_ : Shape := ⟨0, ![]⟩
abbrev S2x4096 : Shape := ⟨2, ![2, 4096]⟩
abbrev S2x4096x1 : Shape := ⟨3, ![2, 4096, 1]⟩

abbrev nBuf : Space → Nat
  | .hbm => 41
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024x1024, .f32⟩
  | .hbm, ⟨2, _⟩ => ⟨S1024, .f32⟩
  | .hbm, ⟨3, _⟩ => ⟨S16x1024, .f32⟩
  | .hbm, ⟨4, _⟩ => ⟨S16, .f32⟩
  | .hbm, ⟨5, _⟩ => ⟨S16x1024, .f32⟩
  | .hbm, ⟨6, _⟩ => ⟨S16, .f32⟩
  | .hbm, ⟨7, _⟩ => ⟨S1024x16, .f32⟩
  | .hbm, ⟨8, _⟩ => ⟨S2x4096x16, .f32⟩
  | .hbm, ⟨9, _⟩ => ⟨S1x1x16, .f32⟩
  | .hbm, ⟨10, _⟩ => ⟨S2x4096x16, .f32⟩
  | .hbm, ⟨11, _⟩ => ⟨S2x4096x16, .f32⟩
  | .hbm, ⟨12, _⟩ => ⟨S2x4096x16, .f32⟩
  | .hbm, ⟨13, _⟩ => ⟨S1x1x16, .f32⟩
  | .hbm, ⟨14, _⟩ => ⟨S2x4096x16, .f32⟩
  | .hbm, ⟨15, _⟩ => ⟨S2x4096x16, .f32⟩
  | .hbm, ⟨16, _⟩ => ⟨S2x4096x1024, .f32⟩
  | .hbm, ⟨17, _⟩ => ⟨S1x1x1024, .f32⟩
  | .hbm, ⟨18, _⟩ => ⟨S2x4096x1024, .f32⟩
  | .hbm, ⟨19, _⟩ => ⟨S2x4096x1024, .f32⟩
  | .hbm, ⟨20, _⟩ => ⟨S_, .f32⟩
  | .hbm, ⟨21, _⟩ => ⟨S2x4096x1024, .f32⟩
  | .hbm, ⟨22, _⟩ => ⟨S2x4096x1024, .f32⟩
  | .hbm, ⟨23, _⟩ => ⟨S2x4096x1024, .f32⟩
  | .hbm, ⟨24, _⟩ => ⟨S2x4096x1024, .f32⟩
  | .hbm, ⟨25, _⟩ => ⟨S2x4096x1024, .i1⟩
  | .hbm, ⟨26, _⟩ => ⟨S2x4096x1024, .f32⟩
  | .hbm, ⟨27, _⟩ => ⟨S2x4096x1024, .f32⟩
  | .hbm, ⟨28, _⟩ => ⟨S2x4096x1024, .f32⟩
  | .hbm, ⟨29, _⟩ => ⟨S2x4096x1024, .f32⟩
  | .hbm, ⟨30, _⟩ => ⟨S2x4096x1024, .f32⟩
  | .hbm, ⟨31, _⟩ => ⟨S2x4096x1024, .f32⟩
  | .hbm, ⟨32, _⟩ => ⟨S2x4096x1024, .f32⟩
  | .hbm, ⟨33, _⟩ => ⟨S2x4096x1024, .f32⟩
  | .hbm, ⟨34, _⟩ => ⟨S2x4096x16, .f32⟩
  | .hbm, ⟨35, _⟩ => ⟨S_, .f32⟩
  | .hbm, ⟨36, _⟩ => ⟨S2x4096, .f32⟩
  | .hbm, ⟨37, _⟩ => ⟨S2x4096x1024, .f32⟩
  | .hbm, ⟨38, _⟩ => ⟨S2x4096x1, .f32⟩
  | .hbm, ⟨39, _⟩ => ⟨S2x4096x1024, .f32⟩
  | .hbm, ⟨40, _⟩ => ⟨S2x4096x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v12 : Ref sig .tc := ⟨.hbm, 33, rfl⟩
abbrev main_v13 : Ref sig .tc := ⟨.hbm, 34, rfl⟩
abbrev main_cst : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩

abbrev nD : Nat := 1
abbrev τ : Topo := Topo.v7x

variable {F : FTy → Type} [FloatOps F]

class Facts₀ : Prop where
  bcast_S16_S1x1x16_2 : S16.BroadcastsInDim S1x1x16 (![2] : Fin 1 → Fin S1x1x16.rank)
  bcast_S1x1x16_S2x4096x16_0_1_2 : S1x1x16.BroadcastsInDim S2x4096x16 (![0, 1, 2] : Fin 3 → Fin S2x4096x16.rank)
  bcast_S1024_S1x1x1024_2 : S1024.BroadcastsInDim S1x1x1024 (![2] : Fin 1 → Fin S1x1x1024.rank)
  bcast_S1x1x1024_S2x4096x1024_0_1_2 : S1x1x1024.BroadcastsInDim S2x4096x1024 (![0, 1, 2] : Fin 3 → Fin S2x4096x1024.rank)
  bcast_S_S2x4096x1024 : S_.BroadcastsInDim S2x4096x1024 (![] : Fin 0 → Fin S2x4096x1024.rank)
  reducesTo_S2x4096x16_S2x4096_d2 : S2x4096x16.ReducesTo [2] S2x4096
  h_S_ : 0 < S_.numel
  bcast_S2x4096_S2x4096x1_0_1 : S2x4096.BroadcastsInDim S2x4096x1 (![0, 1] : Fin 2 → Fin S2x4096x1.rank)
  bcast_S2x4096x1_S2x4096x1024_0_1_2 : S2x4096x1.BroadcastsInDim S2x4096x1024 (![0, 1, 2] : Fin 3 → Fin S2x4096x1024.rank)
  dot_S2x4096x1024_S16x1024_S2x4096x16_2_1_01_0_n_n_wf : DotDims.WF S2x4096x1024 S16x1024 S2x4096x16 [2] [1] [0, 1] [0] [] []
  dot_S2x4096x1024_S1024x1024_S2x4096x1024_2_1_01_0_n_n_wf : DotDims.WF S2x4096x1024 S1024x1024 S2x4096x1024 [2] [1] [0, 1] [0] [] []

variable [Facts₀]

def dot_S2x4096x1024_S16x1024_S2x4096x16_2_1_01_0_n_n : DotDims S2x4096x1024 S16x1024 S2x4096x16 where
  lhsContracting := [2]
  rhsContracting := [1]
  lhsNonContracting := [0, 1]
  rhsNonContracting := [0]
  lhsBatch := []
  rhsBatch := []
  wf := dot_S2x4096x1024_S16x1024_S2x4096x16_2_1_01_0_n_n_wf
def dot_S2x4096x1024_S1024x1024_S2x4096x1024_2_1_01_0_n_n : DotDims S2x4096x1024 S1024x1024 S2x4096x1024 where
  lhsContracting := [2]
  rhsContracting := [1]
  lhsNonContracting := [0, 1]
  rhsNonContracting := [0]
  lhsBatch := []
  rhsBatch := []
  wf := dot_S2x4096x1024_S1024x1024_S2x4096x1024_2_1_01_0_n_n_wf

class Facts : Prop extends Facts₀ where

variable [Facts]
-- ==== Proof.Cell.lean ====
/-
  The pure mathematics of one output entry, over the extended reals.

  For one row of the activations x_r (1024 entries) the result at column e is

      (x_r[e] * softplus (sum_k x_r[k] * w1[k, e] + c1[e]))
        * sum_n (sum_k x_r[k] * w3[k, n] + c3[n]) * (sum_k x_r[k] * w2[k, n] + c2[n])

  with softplus z = max z 0 + log1p (exp (-|z - 0|)), the form both programs compute it in
  (|a| is max a (-a)).  The weights enter as functions w[k, e] of the contraction index k and
  the output index e, so that a weight matrix stored transposed and one stored plainly are
  two ways of supplying the same function.

  Also here: the two shape facts a row sum kept as a column needs — a length-a vector cast to
  an a x 1 column, and that column broadcast along the rows of an a x b matrix.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Gated

open Idealize.ShloMosaic Idealize.ShloMosaic.ValueIdx

/-- softplus as both programs spell it: max z 0 + log (1 + exp (-|z - 0|)). -/
def softplus (z : EReal) : EReal :=
  max z 0 + Ideal.log1p (Ideal.exp (-(max (z - 0) (-(z - 0)))))

/-- An extended real is never different from itself (there is no NaN), under the ordered test … -/
theorem cmp_one_self (a : EReal) : Ideal.cmp .one a a = 0#1 := by simp [Ideal.cmp]
/-- … and under the unordered one. -/
theorem cmp_une_self (a : EReal) : Ideal.cmp .une a a = 0#1 := by simp [Ideal.cmp]

/-- softplus as the kernel body computes it over a whole vector, read at an index: the test "z - 0 differs from
    itself" never holds, so the second branch is taken, and 0 - |z - 0| is -|z - 0|. -/
theorem softplus_body {S : Shape} (Z : FVec Ideal S .f32) (i : S.Idx) :
    select (cmpf .one (subf Z (broadcast S (FloatOps.ofBits .f32 0x00000000#32))) (subf Z (broadcast S (FloatOps.ofBits .f32 0x00000000#32))))
      (addf Z (broadcast S (FloatOps.ofBits .f32 0x00000000#32)))
      (addf (maximumf Z (broadcast S (FloatOps.ofBits .f32 0x00000000#32)))
        (log1p (exp (subf (broadcast S (FloatOps.ofBits .f32 0x00000000#32))
          (absf (subf Z (broadcast S (FloatOps.ofBits .f32 0x00000000#32)))))))) i
      = softplus (Z i) := by
  show Scalar.select (Ideal.cmp .one (Z i - Ideal.ofBits .f32 0x00000000#32) (Z i - Ideal.ofBits .f32 0x00000000#32))
      (Z i + Ideal.ofBits .f32 0x00000000#32)
      (max (Z i) (Ideal.ofBits .f32 0x00000000#32) + Ideal.log1p (Ideal.exp (Ideal.ofBits .f32 0x00000000#32
        - max (Z i - Ideal.ofBits .f32 0x00000000#32) (-(Z i - Ideal.ofBits .f32 0x00000000#32))))) = _
  rw [cmp_one_self, select_zero, Ideal.ofBits_zero_f32, zero_sub]
  rfl

/-- softplus as the host computes it on one element: the same, with the unordered test and a negation. -/
theorem softplus_host (z : EReal) :
    Scalar.select (Ideal.cmp .une (z - Ideal.ofBits .f32 0x00000000#32) (z - Ideal.ofBits .f32 0x00000000#32))
      (z + Ideal.ofBits .f32 0x00000000#32)
      (max z (Ideal.ofBits .f32 0x00000000#32) + Ideal.log1p (Ideal.exp (-(max (z - Ideal.ofBits .f32 0x00000000#32) (-(z - Ideal.ofBits .f32 0x00000000#32))))))
      = softplus z := by
  rw [cmp_une_self, select_zero, Ideal.ofBits_zero_f32]
  rfl

/-- One entry of the result from one row of activations. -/
def cell (xr : Fin 1024 → EReal) (w1 : Fin 1024 → Fin 1024 → EReal) (c1 : Fin 1024 → EReal)
    (w2 : Fin 1024 → Fin 16 → EReal) (c2 : Fin 16 → EReal)
    (w3 : Fin 1024 → Fin 16 → EReal) (c3 : Fin 16 → EReal) (e : Fin 1024) : EReal :=
  (xr e * softplus ((∑ k : Fin 1024, xr k * w1 k e) + c1 e))
    * ∑ n : Fin 16, ((∑ k : Fin 1024, xr k * w3 k n) + c3 n) * ((∑ k : Fin 1024, xr k * w2 k n) + c2 n)

variable {α : Type}

/-- A length-a vector cast to an a x 1 column reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An a x 1 column broadcast to a x b reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The whole result -/

/-- Row a * 4096 + b of the flattened activations. -/
abbrev flatRow (a : Fin 2) (b : Fin 4096) : Fin 8192 := ⟨a.val * 4096 + b.val, by have := a.isLt; have := b.isLt; omega⟩

/-- The 2 x 4096 x 1024 activations flattened to 8192 x 1024 read, at (a * 4096 + b, k), the activations at (a, b, k). -/
theorem flatten_apply (x : (⟨3, ![2, 4096, 1024]⟩ : Shape).Idx → α) (h : (⟨3, ![2, 4096, 1024]⟩ : Shape).ShapeCasts ⟨2, ![8192, 1024]⟩)
    (a : Fin 2) (b : Fin 4096) (k : Fin 1024) :
    shapeCast ⟨2, ![8192, 1024]⟩ x h (ix2 (flatRow a b) k) = x (ix3 a b k) :=
  shapeCast_apply x h _ _ (by
    rw [Shape.rowMajor_val_two, Shape.rowMajor_val_three]
    show (a.val * 4096 + b.val) * 1024 + k.val = (a.val * 4096 + b.val) * 1024 + k.val
    rfl)

/-- An 8192 x 1024 matrix cut back into 2 x 4096 x 1024 reads, at (a, b, e), the matrix at (a * 4096 + b, e). -/
theorem unflatten_apply (y : (⟨2, ![8192, 1024]⟩ : Shape).Idx → α) (h : (⟨2, ![8192, 1024]⟩ : Shape).ShapeCasts ⟨3, ![2, 4096, 1024]⟩)
    (a : Fin 2) (b : Fin 4096) (e : Fin 1024) :
    shapeCast ⟨3, ![2, 4096, 1024]⟩ y h (ix3 a b e) = y (ix2 (flatRow a b) e) :=
  shapeCast_apply y h _ _ (by
    rw [Shape.rowMajor_val_two, Shape.rowMajor_val_three]
    show (a.val * 4096 + b.val) * 1024 + e.val = (a.val * 4096 + b.val) * 1024 + e.val
    rfl)

/-- The 8192 x 1024 result from the flattened activations X and the weights and biases as the caller passes them
    (W1 is 1024 x 1024, W2 and W3 are 16 x 1024: output index first, contraction index second). -/
def rows (X : (⟨2, ![8192, 1024]⟩ : Shape).Idx → EReal) (W1 : (⟨2, ![1024, 1024]⟩ : Shape).Idx → EReal)
    (b1 : (⟨1, ![1024]⟩ : Shape).Idx → EReal) (W2 : (⟨2, ![16, 1024]⟩ : Shape).Idx → EReal) (b2 : (⟨1, ![16]⟩ : Shape).Idx → EReal)
    (W3 : (⟨2, ![16, 1024]⟩ : Shape).Idx → EReal) (b3 : (⟨1, ![16]⟩ : Shape).Idx → EReal) :
    (⟨2, ![8192, 1024]⟩ : Shape).Idx → EReal := fun i =>
  cell (fun k => X (ix2 (⟨(i 0).val, (i 0).isLt⟩ : Fin 8192) k)) (fun k e => W1 (ix2 e k)) (fun e => b1 (ix1 e))
    (fun k n => W2 (ix2 n k)) (fun n => b2 (ix1 n)) (fun k n => W3 (ix2 n k)) (fun n => b3 (ix1 n))
    (⟨(i 1).val, (i 1).isLt⟩ : Fin 1024)

/-- The result in the caller's 2 x 4096 x 1024 shape. -/
def result (h1 : (⟨3, ![2, 4096, 1024]⟩ : Shape).ShapeCasts ⟨2, ![8192, 1024]⟩) (h2 : (⟨2, ![8192, 1024]⟩ : Shape).ShapeCasts ⟨3, ![2, 4096, 1024]⟩)
    (x : (⟨3, ![2, 4096, 1024]⟩ : Shape).Idx → EReal) (W1 : (⟨2, ![1024, 1024]⟩ : Shape).Idx → EReal)
    (b1 : (⟨1, ![1024]⟩ : Shape).Idx → EReal) (W2 : (⟨2, ![16, 1024]⟩ : Shape).Idx → EReal) (b2 : (⟨1, ![16]⟩ : Shape).Idx → EReal)
    (W3 : (⟨2, ![16, 1024]⟩ : Shape).Idx → EReal) (b3 : (⟨1, ![16]⟩ : Shape).Idx → EReal) :
    (⟨3, ![2, 4096, 1024]⟩ : Shape).Idx → EReal :=
  shapeCast ⟨3, ![2, 4096, 1024]⟩ (rows (shapeCast ⟨2, ![8192, 1024]⟩ x h1) W1 b1 W2 b2 W3 b3) h2

/-- The result at (a, b, e) is the entry function at row (a, b) of the activations. -/
theorem result_apply (h1 : (⟨3, ![2, 4096, 1024]⟩ : Shape).ShapeCasts ⟨2, ![8192, 1024]⟩) (h2 : (⟨2, ![8192, 1024]⟩ : Shape).ShapeCasts ⟨3, ![2, 4096, 1024]⟩)
    (x : (⟨3, ![2, 4096, 1024]⟩ : Shape).Idx → EReal) (W1 : (⟨2, ![1024, 1024]⟩ : Shape).Idx → EReal)
    (b1 : (⟨1, ![1024]⟩ : Shape).Idx → EReal) (W2 : (⟨2, ![16, 1024]⟩ : Shape).Idx → EReal) (b2 : (⟨1, ![16]⟩ : Shape).Idx → EReal)
    (W3 : (⟨2, ![16, 1024]⟩ : Shape).Idx → EReal) (b3 : (⟨1, ![16]⟩ : Shape).Idx → EReal) (a : Fin 2) (b : Fin 4096) (e : Fin 1024) :
    result h1 h2 x W1 b1 W2 b2 W3 b3 (ix3 a b e)
      = cell (fun k => x (ix3 a b k)) (fun k e => W1 (ix2 e k)) (fun e => b1 (ix1 e))
          (fun k n => W2 (ix2 n k)) (fun n => b2 (ix1 n)) (fun k n => W3 (ix2 n k)) (fun n => b3 (ix1 n)) e := by
  unfold result
  rw [unflatten_apply]
  unfold rows
  have hx : (fun k : Fin 1024 => shapeCast ⟨2, ![8192, 1024]⟩ x h1 (ix2 (⟨(ix2 (flatRow a b) e 0).val, (ix2 (flatRow a b) e 0).isLt⟩ : Fin 8192) k))
      = fun k => x (ix3 a b k) := funext fun k => flatten_apply x h1 a b k
  rw [hx]

end Cert.Gated

end
-- ==== Proof.LibRealFactor.lean ====
/-
  Two general facts about the extended reals as the exact instance computes with them.

  1. A real factor distributes over the sum of ANY extended real and a real: r * (w + t) = r * w + r * t.  (Over the
     extended reals multiplication does not distribute over addition in general; here the one possibly infinite
     summand w keeps its sign under the real factor r, or is annihilated by r = 0, and the real summand cannot cancel
     it.)  Termwise under a finite sum this splits sum_k x_k * (w_k + a_k) into sum_k x_k * w_k + sum_k x_k * a_k when
     the x_k and a_k are real.
  2. A plain matrix product — an N x D matrix times a D x H matrix, the first one's columns contracted with the second
     one's rows — read at entry (i, j) is the sum over k of l(i, k) * r(k, j), both for the matrix unit's product
     accumulated into the zero matrix and for the host's product.
-/
import Idealize.ShloMosaic.PureOps.Ideal
import Idealize.ShloMosaic.PureOps.Ideal.Laws
import Idealize.ShloMosaic.Lib.ValueIdx

noncomputable section

namespace Cert.Fold

open Idealize.ShloMosaic Idealize.ShloMosaic.ValueIdx

/-! ## The law -/

/-- A real factor distributes over the sum of an extended real and a real. -/
theorem coe_mul_add_coe (r t : ℝ) (w : EReal) :
    (r : EReal) * (w + (t : EReal)) = (r : EReal) * w + (r : EReal) * (t : EReal) := by
  induction w using EReal.rec with
  | bot =>
    rw [EReal.bot_add]
    rcases lt_trichotomy r 0 with h | h | h
    · rw [EReal.coe_mul_bot_of_neg h, ← EReal.coe_mul, EReal.top_add_coe]
    · subst h; simp
    · rw [EReal.coe_mul_bot_of_pos h, EReal.bot_add]
  | coe w =>
    rw [← EReal.coe_add, ← EReal.coe_mul, ← EReal.coe_mul, ← EReal.coe_mul, ← EReal.coe_add, mul_add]
  | top =>
    rw [EReal.top_add_coe]
    rcases lt_trichotomy r 0 with h | h | h
    · rw [EReal.coe_mul_top_of_neg h, EReal.bot_add]
    · subst h; simp
    · rw [EReal.coe_mul_top_of_pos h, ← EReal.coe_mul, EReal.top_add_coe]

/-- Termwise: a sum of real multiples of `w k + a k`, the `a k` real, is the sum of the multiples of the `w k`
    plus the sum of the multiples of the `a k`. -/
theorem sum_mul_add {ι : Type*} (s : Finset ι) (x w a : ι → EReal)
    (hx : ∀ k, ∃ r : ℝ, x k = (r : EReal)) (ha : ∀ k, ∃ t : ℝ, a k = (t : EReal)) :
    ∑ k ∈ s, x k * (w k + a k) = ∑ k ∈ s, x k * w k + ∑ k ∈ s, x k * a k := by
  rw [← Finset.sum_add_distrib]
  refine Finset.sum_congr rfl fun k _ => ?_
  obtain ⟨r, hr⟩ := hx k
  obtain ⟨t, ht⟩ := ha k
  rw [hr, ht]
  exact coe_mul_add_coe r t (w k)

/-! ## A matrix product at an entry -/

/-- For a plain product of an N x D matrix with a D x H matrix (the first one's columns contracted with the second
    one's rows) the sum over the contraction index at entry (i, j) is the sum over k of l(i, k) r(k, j). -/
theorem contr_sum_rows {N D H : Nat} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![N, D]⟩ : Shape).Idx → EReal) (r : (⟨2, ![D, H]⟩ : Shape).Idx → EReal) (i : Fin N) (j : Fin H) :
    ∑ k : d.contr.Idx, l (d.lhsIdx (ix2 i j) k) * r (d.rhsIdx (ix2 i j) k) = ∑ k : Fin D, l (ix2 i k) * r (ix2 k j) := by
  obtain ⟨lc, rc, ln, rn, lb, rb, wf⟩ := d
  simp only at h1 h2 h3 h4 h5 h6
  subst h1 h2 h3 h4 h5 h6
  rw [← Equiv.sum_comp (contrEquiv1 (⟨[1], [0], [0], [1], [], [], wf⟩ : DotDims ⟨2, ![N, D]⟩ ⟨2, ![D, H]⟩ ⟨2, ![N, H]⟩) D rfl rfl).symm]
  refine Finset.sum_congr rfl fun k _ => ?_
  congr 1
  · refine congrArg l ?_
    funext a
    match a with
    | ⟨0, _⟩ => exact Fin.ext rfl
    | ⟨1, _⟩ => exact Fin.ext rfl
  · refine congrArg r ?_
    funext a
    match a with
    | ⟨0, _⟩ => exact Fin.ext rfl
    | ⟨1, _⟩ => exact Fin.ext rfl

/-- The matrix unit's product accumulated into the zero matrix, at entry (i, j). -/
theorem matmul_zero_rows {N D H : Nat} {φ₁ φ₂ : FTy} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![N, D]⟩ φ₁) (r : FVec Ideal ⟨2, ![D, H]⟩ φ₂)
    (i : Fin N) (j : Fin H) :
    matmul d prec l r (constant ⟨2, ![N, H]⟩ .f32 0x00000000#32) (ix2 i j) = ∑ k : Fin D, l (ix2 i k) * r (ix2 k j) := by
  simp only [matmul]
  rw [Ideal.matmul_constant_zero_apply]
  exact contr_sum_rows d h1 h2 h3 h4 h5 h6 l r i j

/-- The host's product, at entry (i, j). -/
theorem dotGeneral_rows {N D H : Nat} {φ₁ φ₂ : FTy} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![N, D]⟩ φ₁) (r : FVec Ideal ⟨2, ![D, H]⟩ φ₂)
    (i : Fin N) (j : Fin H) :
    Host.dotGeneral d prec l r (ix2 i j) = ∑ k : Fin D, l (ix2 i k) * r (ix2 k j) := by
  unfold Host.dotGeneral
  rw [Ideal.dotGeneral_apply]
  exact contr_sum_rows d h1 h2 h3 h4 h5 h6 l r i j

end Cert.Fold

end
-- ==== Proof.Body.lean ====
/-
  The kernel body on one block, read at an index.

  The body loads a 512 x 1024 block x of activations, the transposed weight matrices W1^T (1024 x 1024), W2^T and
  W3^T (1024 x 16) and the biases as 1 x 1024 and 1 x 16 rows, and stores one 512 x 1024 block.  Over the extended
  reals a change of float format is the identity and a matrix-unit product into the zero matrix is the plain sum
  of products, so the stored block at (p, e) is

      (x[p, e] * softplus (sum_k x[p, k] W1^T[k, e] + b1[0, e]))
        * sum_n (sum_k x[p, k] W3^T[k, n] + b3[0, n]) * (sum_k x[p, k] W2^T[k, n] + b2[0, n]),

  which is the entry function of Cell.lean at row p of the block.
-/
import proofs.«138668_j25907242729655_1_alg».proof.Proof.Gen.KernelIdeal.Frame
import proofs.«138668_j25907242729655_1_alg».proof.Proof.Cell
import proofs.«138668_j25907242729655_1_alg».proof.Proof.LibRealFactor

noncomputable section

namespace Cert.KernelIdeal.Block

open Cert.KernelIdeal Cert.KernelIdeal.Gen Idealize.ShloMosaic Idealize.ShloMosaic.ValueIdx Cert.Gated

/-- The loaded activations, shape-cast to their own shape, are themselves. -/
theorem acts_apply (v0 : Vec Ideal S512x1024 .f32) (i : S512x1024.Idx) : k0_pay2 v0 i = v0 i := by
  unfold k0_pay2
  show shapeCast S512x1024 v0 shapeCasts_S512x1024_S512x1024 i = v0 i
  rw [shapeCast_self]

/-- Nor does the truncation to bf16 change them. -/
theorem actsTrunc_apply (v0 : Vec Ideal S512x1024 .f32) (i : S512x1024.Idx) : k0_pay3 v0 i = v0 i := by
  unfold k0_pay3
  exact acts_apply v0 i

/-- The first projection: row p of the block times column e of W1^T. -/
theorem proj1_apply (v0 : Vec Ideal S512x1024 .f32) (v3 : Vec Ideal S1024x1024 .f32) (p : Fin 512) (e : Fin 1024) :
    matmul dot_S512x1024_S1024x1024_S512x1024_1_0_0_1_n_n none (k0_pay3 v0)
      (truncf .bf16 (shapeCast S1024x1024 v3 shapeCasts_S1024x1024_S1024x1024) bitsLt_bf16_f32)
      (constant (F := Ideal) S512x1024 .f32 0x00000000#32) (ix2 p e)
      = ∑ k : Fin 1024, v0 (ix2 p k) * v3 (ix2 k e) := by
  rw [Cert.Fold.matmul_zero_rows _ rfl rfl rfl rfl rfl rfl]
  refine Finset.sum_congr rfl fun k _ => ?_
  rw [actsTrunc_apply]
  show v0 (ix2 p k) * shapeCast S1024x1024 v3 shapeCasts_S1024x1024_S1024x1024 (ix2 k e) = _
  rw [shapeCast_self]

/-- The two narrow projections: row p of the block times column n of a 1024 x 16 matrix. -/
theorem proj16_apply (v0 : Vec Ideal S512x1024 .f32) (w : Vec Ideal S1024x16 .f32) (p : Fin 512) (n : Fin 16) :
    matmul dot_S512x1024_S1024x16_S512x16_1_0_0_1_n_n none (k0_pay3 v0)
      (truncf .bf16 (shapeCast S1024x16 w shapeCasts_S1024x16_S1024x16) bitsLt_bf16_f32)
      (constant (F := Ideal) S512x16 .f32 0x00000000#32) (ix2 p n)
      = ∑ k : Fin 1024, v0 (ix2 p k) * w (ix2 k n) := by
  rw [Cert.Fold.matmul_zero_rows _ rfl rfl rfl rfl rfl rfl]
  refine Finset.sum_congr rfl fun k _ => ?_
  rw [actsTrunc_apply]
  show v0 (ix2 p k) * shapeCast S1024x16 w shapeCasts_S1024x16_S1024x16 (ix2 k n) = _
  rw [shapeCast_self]

/-- A 1 x 16 bias row broadcast over the 512 rows. -/
theorem bias16_apply (b : Vec Ideal S1x16 .f32) (p : Fin 512) (n : Fin 16) :
    broadcastTo S512x16 (shapeCast S1x16 b shapeCasts_S1x16_S1x16) broadcasts_S1x16_S512x16 (ix2 p n) = b (ix2 (0 : Fin 1) n) := by
  rw [broadcastTo_1b_ab_apply, shapeCast_self]

/-- The gate: softplus of the first projection plus its bias. -/
theorem gate_apply (v0 : Vec Ideal S512x1024 .f32) (v3 : Vec Ideal S1024x1024 .f32) (v7 : Vec Ideal S1x1024 .f32) (p : Fin 512) (e : Fin 1024) :
    k0_pay4 v0 v3 v7 (ix2 p e) = softplus ((∑ k : Fin 1024, v0 (ix2 p k) * v3 (ix2 k e)) + v7 (ix2 (0 : Fin 1) e)) := by
  unfold k0_pay4
  refine (softplus_body _ (ix2 p e)).trans (congrArg softplus ?_)
  show matmul dot_S512x1024_S1024x1024_S512x1024_1_0_0_1_n_n none (k0_pay3 v0)
      (truncf .bf16 (shapeCast S1024x1024 v3 shapeCasts_S1024x1024_S1024x1024) bitsLt_bf16_f32)
      (constant (F := Ideal) S512x1024 .f32 0x00000000#32) (ix2 p e)
    + broadcastTo S512x1024 (shapeCast S1x1024 v7 shapeCasts_S1x1024_S1x1024) broadcasts_S1x1024_S512x1024 (ix2 p e) = _
  rw [proj1_apply, broadcastTo_1b_ab_apply, shapeCast_self]

/-- The second projection with its bias. -/
theorem projB_apply (v0 : Vec Ideal S512x1024 .f32) (v25 : Vec Ideal S1024x16 .f32) (v29 : Vec Ideal S1x16 .f32) (p : Fin 512) (n : Fin 16) :
    k0_pay5 v0 v25 v29 (ix2 p n) = (∑ k : Fin 1024, v0 (ix2 p k) * v25 (ix2 k n)) + v29 (ix2 (0 : Fin 1) n) := by
  unfold k0_pay5
  show matmul dot_S512x1024_S1024x16_S512x16_1_0_0_1_n_n none (k0_pay3 v0)
      (truncf .bf16 (shapeCast S1024x16 v25 shapeCasts_S1024x16_S1024x16) bitsLt_bf16_f32)
      (constant (F := Ideal) S512x16 .f32 0x00000000#32) (ix2 p n)
    + broadcastTo S512x16 (shapeCast S1x16 v29 shapeCasts_S1x16_S1x16) broadcasts_S1x16_S512x16 (ix2 p n) = _
  rw [proj16_apply, bias16_apply]

/-- The third projection, before its bias. -/
theorem projC_apply (v0 : Vec Ideal S512x1024 .f32) (v33 : Vec Ideal S1024x16 .f32) (p : Fin 512) (n : Fin 16) :
    k0_pay6 v0 v33 (ix2 p n) = ∑ k : Fin 1024, v0 (ix2 p k) * v33 (ix2 k n) := by
  unfold k0_pay6
  exact proj16_apply v0 v33 p n

/-- The third bias, broadcast. -/
theorem biasC_apply (v37 : Vec Ideal S1x16 .f32) (p : Fin 512) (n : Fin 16) :
    k0_pay7 v37 (ix2 p n) = v37 (ix2 (0 : Fin 1) n) := by
  unfold k0_pay7
  exact bias16_apply v37 p n

/-- A row sum of a 512 x 16 matrix at row p. -/
theorem rowSum_apply (v : FVec Ideal S512x16 .f32) (p : Fin 512) :
    multiReduction .add [1] S512 v 0x00000000#32 reduces_S512x16_S512 (.inl rfl) rfl (ix1 p) = ∑ n : Fin 16, v (ix2 p n) :=
  (Ideal.multiReduction_add_single v 0x00000000#32 reduces_S512x16_S512 (.inl rfl) rfl (ix1 p)).trans
    (Finset.sum_congr rfl fun n _ => congrArg v (funext fun a => match a with
      | ⟨0, _⟩ => Fin.ext rfl
      | ⟨1, _⟩ => Fin.ext rfl))

/-- The stored value from the five intermediate vectors. -/
theorem store_apply (v1 v24 : FVec Ideal S512x1024 .f32) (v32 v36 v39 : FVec Ideal S512x16 .f32) (p : Fin 512) (e : Fin 1024) :
    k0_pay1 v1 v24 v32 v36 v39 (ix2 p e)
      = (v1 (ix2 p e) * v24 (ix2 p e)) * ∑ n : Fin 16, (v36 (ix2 p n) + v39 (ix2 p n)) * v32 (ix2 p n) := by
  unfold k0_pay1
  show (v1 (ix2 p e) * v24 (ix2 p e))
      * broadcastTo S512x1024 (shapeCast S512x1 (multiReduction .add [1] S512 (mulf (addf v36 v39) v32) 0x00000000#32 reduces_S512x16_S512 (.inl rfl) rfl)
          shapeCasts_S512_S512x1) broadcasts_S512x1_S512x1024 (ix2 p e) = _
  rw [broadcastTo_a1_ab_apply, shapeCast_a_a1_apply, rowSum_apply]
  rfl

theorem hz : (![0, 0] : Fin 2 → Nat) = fun _ => 0 := funext fun a => by fin_cases a <;> rfl

/-- THE BLOCK: what the body leaves in the output buffer, at (p, e), is the entry function at row p of the
    activations block, the weights supplied as the loaded transposed matrices. -/
theorem block_apply (x0 : Vec Ideal S512x1024 .f32) (x1 : Vec Ideal S1024x1024 .f32) (x2 : Vec Ideal S1x1024 .f32)
    (x3 : Vec Ideal S1024x16 .f32) (x4 : Vec Ideal S1x16 .f32) (x5 : Vec Ideal S1024x16 .f32) (x6 : Vec Ideal S1x16 .f32)
    (p : Fin 512) (e : Fin 1024) :
    out0_7 x0 x1 x2 x3 x4 x5 x6 (ix2 p e)
      = cell (fun k => x0 (ix2 p k)) (fun k e' => x1 (ix2 k e')) (fun e' => x2 (ix2 (0 : Fin 1) e'))
          (fun k n => x3 (ix2 k n)) (fun n => x4 (ix2 (0 : Fin 1) n))
          (fun k n => x5 (ix2 k n)) (fun n => x6 (ix2 (0 : Fin 1) n)) e := by
  unfold out0_7
  rw [View.canon_unit_zero hz]
  simp only [View.ld_unit_zero (S := S512x1024) hz, View.ld_unit_zero (S := S1024x1024) hz, View.ld_unit_zero (S := S1x1024) hz,
    View.ld_unit_zero (S := S1024x16) hz, View.ld_unit_zero (S := S1x16) hz]
  rw [store_apply, acts_apply, gate_apply]
  simp only [projB_apply, projC_apply, biasC_apply]
  rfl

end Cert.KernelIdeal.Block

end
-- ==== Proof.Whole.lean ====
/-
  From blocks to the whole result of the kernel program.

  Before the kernel runs, the program flattens the activations x (2 x 4096 x 1024) to X (8192 x 1024), transposes
  W1, W2, W3 and lays each bias out as a one-row matrix.  The kernel visits 16 points; at point t it reads rows
  512 t .. 512 t + 511 of X and the whole of every other array, and writes rows 512 t .. 512 t + 511 of the output.
  The body's block at (p, e) is the entry function of Cell.lean on row p of the block (Body.lean), that is on row
  512 t + p of X; W1^T[k, e] = W1[e, k] and the one-row bias at (0, e) is b[e], so each written block is the
  corresponding block of

      rows X W1 b1 W2 b2 W3 b3 : 8192 x 1024,

  and the 16 blocks cover all 8192 rows (row r lies in block r / 512).  After the kernel the program cuts the
  8192 x 1024 array back into 2 x 4096 x 1024: the result of Cell.lean.
-/
import proofs.«138668_j25907242729655_1_alg».proof.Proof.Gen.KernelIdeal.Frame
import proofs.«138668_j25907242729655_1_alg».proof.Proof.Body
import Idealize.ShloMosaic.Lib.Pipeline.Value
import Idealize.ShloMosaic.Lib.StableHlo.Run
import Idealize.ShloMosaic.Lib.ValueLayout

noncomputable section

namespace Cert.KernelIdeal.Whole

open Cert.KernelIdeal Cert.KernelIdeal.Gen Idealize.ShloMosaic Idealize.ShloMosaic.TcCoe Idealize.SL.Sem
open Idealize.ShloMosaic.ValueIdx Cert.Gated Idealize.ShloMosaic.StableHlo
open Idealize.ShloMosaic.Pipeline (Dat)

variable (m : (ℓ : Loc nD τ sig) → Buf (Elt Ideal) ℓ) (ρ : Dev nD → PrngReg)

/-! ## The arrays the region finds -/

/-- The kernel's first array is the activations flattened. -/
theorem flat_eq (c : Dev nD) :
    (V m c main_v0 : S8192x1024.Idx → EReal)
      = shapeCast S8192x1024 (m ((c : Thread nD τ).loc main_arg0)) shapeCasts_S2x4096x1024_S8192x1024 := by
  show StableHlo.after hostOps0 (fun b => m (c, b)) (Proc.devRef .tc main_v0) = _
  after_results
  rfl

/-- Its second is W1 transposed … -/
theorem w1t_eq (c : Dev nD) :
    (V m c main_v1 : S1024x1024.Idx → EReal)
      = transpose S1024x1024 [1, 0] (m ((c : Thread nD τ).loc main_arg1)) transposes_S1024x1024_S1024x1024_1_0 := by
  show StableHlo.after hostOps0 (fun b => m (c, b)) (Proc.devRef .tc main_v1) = _
  after_results

/-- … its fourth W2 transposed … -/
theorem w2t_eq (c : Dev nD) :
    (V m c main_v2 : S1024x16.Idx → EReal)
      = transpose S1024x16 [1, 0] (m ((c : Thread nD τ).loc main_arg3)) transposes_S16x1024_S1024x16_1_0 := by
  show StableHlo.after hostOps0 (fun b => m (c, b)) (Proc.devRef .tc main_v2) = _
  after_results

/-- … its sixth W3 transposed. -/
theorem w3t_eq (c : Dev nD) :
    (V m c main_v3 : S1024x16.Idx → EReal)
      = transpose S1024x16 [1, 0] (m ((c : Thread nD τ).loc main_arg5)) transposes_S16x1024_S1024x16_1_0 := by
  show StableHlo.after hostOps0 (fun b => m (c, b)) (Proc.devRef .tc main_v3) = _
  after_results

/-- The biases as one-row matrices: b1 … -/
theorem b1r_eq (c : Dev nD) :
    (V m c main_v4 : S1x1024.Idx → EReal)
      = shapeCast S1x1024 (m ((c : Thread nD τ).loc main_arg2)) shapeCasts_S1024_S1x1024 := by
  show StableHlo.after hostOps0 (fun b => m (c, b)) (Proc.devRef .tc main_v4) = _
  after_results
  rfl

/-- … b2 … -/
theorem b2r_eq (c : Dev nD) :
    (V m c main_v5 : S1x16.Idx → EReal)
      = shapeCast S1x16 (m ((c : Thread nD τ).loc main_arg4)) shapeCasts_S16_S1x16 := by
  show StableHlo.after hostOps0 (fun b => m (c, b)) (Proc.devRef .tc main_v5) = _
  after_results
  rfl

/-- … b3. -/
theorem b3r_eq (c : Dev nD) :
    (V m c main_v6 : S1x16.Idx → EReal)
      = shapeCast S1x16 (m ((c : Thread nD τ).loc main_arg6)) shapeCasts_S16_S1x16 := by
  show StableHlo.after hostOps0 (fun b => m (c, b)) (Proc.devRef .tc main_v6) = _
  after_results
  rfl

/-! ## Which block each point reads and writes -/

/-- At point t the activations' and the output's block index is (t, 0); every other array's is (0, 0). -/
theorem idx_facts : ∀ t : Fin cfg0.N, win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Row t * 512 + p of the flattened activations. -/
abbrev blockRow (t : Fin cfg0.N) (p : Fin 512) : Fin 8192 :=
  ⟨t.val * 512 + p.val, by have := t.isLt; have hN : cfg0.N = 16 := N_0; have := p.isLt; omega⟩

/-- Row p of the activations block at point t is row 512 t + p of the flattened activations. -/
theorem read_x (c : Dev nD) (t : Fin cfg0.N) (p : Fin 512) (k : Fin 1024) :
    iblk m c 0 t (ix2 p k) = V m c main_v0 (ix2 (blockRow t p) k) := by
  show V m c main_v0 (((cfg0.win 0).blk t).view.emb (ix2 p k)) = V m c main_v0 _
  refine congrArg (V m c main_v0) (funext fun a => Fin.ext ?_)
  obtain ⟨e0, e1, -⟩ := idx_facts t
  match a with
  | ⟨0, _⟩ => show win0_0.index t (0 : Fin 2) * 512 + 1 * p.val = t.val * 512 + p.val; omega
  | ⟨1, _⟩ => show win0_0.index t (1 : Fin 2) * 1024 + 1 * k.val = k.val; omega

/-- Every other block is its whole array: W1^T … -/
theorem read_w1 (c : Dev nD) (t : Fin cfg0.N) (k e : Fin 1024) :
    iblk m c 1 t (ix2 k e) = V m c main_v1 (ix2 k e) := by
  show V m c main_v1 (((cfg0.win 1).blk t).view.emb (ix2 k e)) = V m c main_v1 _
  refine congrArg (V m c main_v1) (funext fun a => Fin.ext ?_)
  obtain ⟨-, -, -, -, e0, e1, -⟩ := idx_facts t
  match a with
  | ⟨0, _⟩ => show win0_1.index t (0 : Fin 2) * 1024 + 1 * k.val = k.val; omega
  | ⟨1, _⟩ => show win0_1.index t (1 : Fin 2) * 1024 + 1 * e.val = e.val; omega

/-- … the b1 row … -/
theorem read_b1 (c : Dev nD) (t : Fin cfg0.N) (u : Fin 1) (e : Fin 1024) :
    iblk m c 2 t (ix2 u e) = V m c main_v4 (ix2 u e) := by
  show V m c main_v4 (((cfg0.win 2).blk t).view.emb (ix2 u e)) = V m c main_v4 _
  refine congrArg (V m c main_v4) (funext fun a => Fin.ext ?_)
  obtain ⟨-, -, -, -, -, -, e0, e1, -⟩ := idx_facts t
  match a with
  | ⟨0, _⟩ => show win0_2.index t (0 : Fin 2) * 1 + 1 * u.val = u.val; omega
  | ⟨1, _⟩ => show win0_2.index t (1 : Fin 2) * 1024 + 1 * e.val = e.val; omega

/-- … W2^T … -/
theorem read_w2 (c : Dev nD) (t : Fin cfg0.N) (k : Fin 1024) (n : Fin 16) :
    iblk m c 3 t (ix2 k n) = V m c main_v2 (ix2 k n) := by
  show V m c main_v2 (((cfg0.win 3).blk t).view.emb (ix2 k n)) = V m c main_v2 _
  refine congrArg (V m c main_v2) (funext fun a => Fin.ext ?_)
  obtain ⟨-, -, -, -, -, -, -, -, e0, e1, -⟩ := idx_facts t
  match a with
  | ⟨0, _⟩ => show win0_3.index t (0 : Fin 2) * 1024 + 1 * k.val = k.val; omega
  | ⟨1, _⟩ => show win0_3.index t (1 : Fin 2) * 16 + 1 * n.val = n.val; omega

/-- … the b2 row … -/
theorem read_b2 (c : Dev nD) (t : Fin cfg0.N) (u : Fin 1) (n : Fin 16) :
    iblk m c 4 t (ix2 u n) = V m c main_v5 (ix2 u n) := by
  show V m c main_v5 (((cfg0.win 4).blk t).view.emb (ix2 u n)) = V m c main_v5 _
  refine congrArg (V m c main_v5) (funext fun a => Fin.ext ?_)
  obtain ⟨-, -, -, -, -, -, -, -, -, -, e0, e1, -⟩ := idx_facts t
  match a with
  | ⟨0, _⟩ => show win0_4.index t (0 : Fin 2) * 1 + 1 * u.val = u.val; omega
  | ⟨1, _⟩ => show win0_4.index t (1 : Fin 2) * 16 + 1 * n.val = n.val; omega

/-- … W3^T … -/
theorem read_w3 (c : Dev nD) (t : Fin cfg0.N) (k : Fin 1024) (n : Fin 16) :
    iblk m c 5 t (ix2 k n) = V m c main_v3 (ix2 k n) := by
  show V m c main_v3 (((cfg0.win 5).blk t).view.emb (ix2 k n)) = V m c main_v3 _
  refine congrArg (V m c main_v3) (funext fun a => Fin.ext ?_)
  obtain ⟨-, -, -, -, -, -, -, -, -, -, -, -, e0, e1, -⟩ := idx_facts t
  match a with
  | ⟨0, _⟩ => show win0_5.index t (0 : Fin 2) * 1024 + 1 * k.val = k.val; omega
  | ⟨1, _⟩ => show win0_5.index t (1 : Fin 2) * 16 + 1 * n.val = n.val; omega

/-- … the b3 row. -/
theorem read_b3 (c : Dev nD) (t : Fin cfg0.N) (u : Fin 1) (n : Fin 16) :
    iblk m c 6 t (ix2 u n) = V m c main_v6 (ix2 u n) := by
  show V m c main_v6 (((cfg0.win 6).blk t).view.emb (ix2 u n)) = V m c main_v6 _
  refine congrArg (V m c main_v6) (funext fun a => Fin.ext ?_)
  obtain ⟨-, -, -, -, -, -, -, -, -, -, -, -, -, -, e0, e1⟩ := idx_facts t
  match a with
  | ⟨0, _⟩ => show win0_6.index t (0 : Fin 2) * 1 + 1 * u.val = u.val; omega
  | ⟨1, _⟩ => show win0_6.index t (1 : Fin 2) * 16 + 1 * n.val = n.val; omega

/-- Where element (p, e) of the output block at point t sits in the output array. -/
theorem emb_out (t : Fin cfg0.N) (p : Fin 512) (e : Fin 1024) :
    ((cfg0.win 7).blk t).view.emb (ix2 p e) = ix2 (blockRow t p) e := by
  funext a; apply Fin.ext
  obtain ⟨-, -, e0, e1, -⟩ := idx_facts t
  match a with
  | ⟨0, _⟩ => show win0_7.index t (0 : Fin 2) * 512 + 1 * p.val = t.val * 512 + p.val; omega
  | ⟨1, _⟩ => show win0_7.index t (1 : Fin 2) * 1024 + 1 * e.val = e.val; omega

/-- The output array after the run: the 8192 x 1024 result of Cell.lean. -/
abbrev outArr (c : Dev nD) : S8192x1024.Idx → EReal :=
  rows (shapeCast S8192x1024 (m ((c : Thread nD τ).loc main_arg0)) shapeCasts_S2x4096x1024_S8192x1024)
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- WHAT POINT t WRITES BACK is block t of that array. -/
theorem flushed_eq (c : Dev nD) (t : Fin cfg0.N) :
    (dats m 0 c).flushed 7 t = ((cfg0.win 7).blk t).view.read (Elt Ideal) (outArr m c) := by
  show (cfg0.win 7).cut (grid0.coords t) ((dats m 0 c).after 7 t) = _
  rw [after0_7]
  funext j
  obtain ⟨p, e, rfl⟩ : ∃ (p : Fin 512) (e : Fin 1024), j = ix2 p e := ⟨j 0, j 1, eq_ix2 j⟩
  show out0_7 (iblk m c 0 t) (iblk m c 1 t) (iblk m c 2 t) (iblk m c 3 t) (iblk m c 4 t) (iblk m c 5 t) (iblk m c 6 t) (ix2 p e)
    = outArr m c (((cfg0.win 7).blk t).view.emb (ix2 p e))
  refine (Block.block_apply (iblk m c 0 t) (iblk m c 1 t) (iblk m c 2 t) (iblk m c 3 t) (iblk m c 4 t) (iblk m c 5 t) (iblk m c 6 t) p e).trans ?_
  rw [emb_out]
  simp only [read_x, read_w1, read_b1, read_w2, read_b2, read_w3, read_b3]
  rw [flat_eq, w1t_eq, b1r_eq, w2t_eq, b2r_eq, w3t_eq, b3r_eq]
  have hW1 : ∀ k e' : Fin 1024, transpose S1024x1024 [1, 0] (m ((c : Thread nD τ).loc main_arg1)) transposes_S1024x1024_S1024x1024_1_0 (ix2 k e')
      = m ((c : Thread nD τ).loc main_arg1) (ix2 e' k) := fun k e' => transpose_ix2_apply _ _ k e'
  have hW2 : ∀ (k : Fin 1024) (n : Fin 16), transpose S1024x16 [1, 0] (m ((c : Thread nD τ).loc main_arg3)) transposes_S16x1024_S1024x16_1_0 (ix2 k n)
      = m ((c : Thread nD τ).loc main_arg3) (ix2 n k) := fun k n => transpose_ix2_apply _ _ k n
  have hW3 : ∀ (k : Fin 1024) (n : Fin 16), transpose S1024x16 [1, 0] (m ((c : Thread nD τ).loc main_arg5)) transposes_S16x1024_S1024x16_1_0 (ix2 k n)
      = m ((c : Thread nD τ).loc main_arg5) (ix2 n k) := fun k n => transpose_ix2_apply _ _ k n
  simp only [hW1, hW2, hW3, shapeCast_a_1a_apply]
  rfl

/-! ## The blocks cover the output -/

/-- An index is in point t's block iff each coordinate is in the block's range. -/
theorem mem_blk (t : Fin cfg0.N) (i : S8192x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v7).slice (win0_7.rect t)).set ↔ _
  rw [View.set_slice_whole, Rect.mem_set_unit]
  exact Iff.rfl

/-- Row r is in the block of point r / 512. -/
theorem cover (i : S8192x1024.Idx) :
    ∃ t : Fin cfg0.N, (cfg0.win 7).flush t = true ∧ i ∈ ((cfg0.win 7).blk t).view.set := by
  have hi0 : (i 0).val < 8192 := (i 0).isLt
  have hi1 : (i 1).val < 1024 := (i 1).isLt
  have hN : cfg0.N = 16 := N_0
  have ht : (i 0).val / 512 < cfg0.N := by rw [hN]; omega
  refine ⟨⟨(i 0).val / 512, ht⟩, flush0_7 _, ?_⟩
  rw [mem_blk]
  obtain ⟨-, -, e0, e1, -⟩ := idx_facts ⟨(i 0).val / 512, ht⟩
  intro a
  match a with
  | ⟨0, _⟩ =>
    show win0_7.index ⟨(i 0).val / 512, ht⟩ (0 : Fin 2) * 512 ≤ (i 0).val ∧ (i 0).val < win0_7.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_7.index ⟨(i 0).val / 512, ht⟩ (1 : Fin 2) * 1024 ≤ (i 1).val ∧ (i 1).val < win0_7.index ⟨(i 0).val / 512, ht⟩ (1 : Fin 2) * 1024 + 1024
    rw [e1]; omega

/-- THE OUTPUT ARRAY after the kernel. -/
theorem final (c : Dev nD) : (dats m 0 c).arrAt 7 cfg0.N = outArr m c :=
  (dats m 0 c).arrAt_eq_of_cover 7 (outArr m c) (fun t _ => flushed_eq m c t) cover

/-- The program's result: that array cut back into 2 x 4096 x 1024. -/
theorem tail_eq (c : Dev nD) :
    Pipeline.afterTail₀ cfgs (dats m) 0 (V0 m) [hostOps1] c main_v8
      = result shapeCasts_S2x4096x1024_S8192x1024 shapeCasts_S8192x1024_S2x4096x1024
          (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) := by
  unfold Pipeline.afterTail₀
  show StableHlo.after hostOps1 _ (Proc.devRef .tc main_v8) = _
  after_results
  have hw : Pipeline.withArrays (cfgs 0).spec c (V0 m c) (fun w => (dats m 0 c).arrAt w (cfgs 0).N) (Proc.tc.devRef main_v7)
      = outArr m c := (Pipeline.withArrays_arr spec0 launch0.win.arr_inj c _ _ 7).trans (final m c)
  rw [hw]
  rfl

/-- THE KERNEL'S RUN: every weakly fair execution ends with the result array at the result of Cell.lean of the
    argument arrays, the arguments unchanged. -/
theorem run : θ_run defs (onTc (τ := τ) (main (F := Ideal))) ⟨m, fun _ => 0, ρ⟩ fun r => ∀ c : Dev nD,
      r.2.mem ((c.tc : Thread nD τ).loc main_v8)
        = result shapeCasts_S2x4096x1024_S8192x1024 shapeCasts_S8192x1024_S2x4096x1024
            (m ((c : Thread nD τ).loc main_arg0))
            (m ((c : Thread nD τ).loc main_arg1)) (m ((c : Thread nD τ).loc main_arg2)) (m ((c : Thread nD τ).loc main_arg3))
            (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Whole

end
-- ==== Proof.RefValue.lean ====
/-
  The reference program computes the entry function of Cell.lean.

  Its stages, read at (a, b, e): three contractions of row (a, b) of the activations with the rows of W1 (1024 of
  them), W2 and W3 (16 each), each plus its bias; softplus of the first; the sum over the 16 columns of the product
  of the other two, kept along the last axis; and the product x * softplus * sum.  The sum starts from the
  constant 0, which adds nothing.
-/
import proofs.«138668_j25907242729655_1_alg».proof.Proof.Gen.ReferenceIdeal.Read
import proofs.«138668_j25907242729655_1_alg».proof.Proof.Cell

noncomputable section

namespace Cert.ReferenceIdeal.RefValue

open Cert.ReferenceIdeal Cert.ReferenceIdeal.Read Idealize.ShloMosaic Idealize.ShloMosaic.ValueIdx Cert.Gated

variable (x0 : (⟨S2x4096x1024, .f32⟩ : BufTy).Contents (Elt Ideal)) (x1 : (⟨S1024x1024, .f32⟩ : BufTy).Contents (Elt Ideal))
  (x2 : (⟨S1024, .f32⟩ : BufTy).Contents (Elt Ideal)) (x3 : (⟨S16x1024, .f32⟩ : BufTy).Contents (Elt Ideal))
  (x4 : (⟨S16, .f32⟩ : BufTy).Contents (Elt Ideal)) (x5 : (⟨S16x1024, .f32⟩ : BufTy).Contents (Elt Ideal))
  (x6 : (⟨S16, .f32⟩ : BufTy).Contents (Elt Ideal))

/-- The first projection with its bias, at (a, b, e). -/
theorem pre_apply (a : Fin 2) (b : Fin 4096) (e : Fin 1024) :
    val_main_v11 (F := Ideal) x0 x1 x2 (ix3 a b e) = (∑ k : Fin 1024, x0 (ix3 a b k) * x1 (ix2 e k)) + x2 (ix1 e) := by
  rw [val_main_v11_apply, val_main_v8_apply, val_main_v10_apply, val_main_v9_apply]
  have el : ∀ k : Fin 1024, lidx_main_v8 (ix3 a b e) k = ix3 a b k := fun k =>
    funext fun ax => Fin.ext (by match ax with | ⟨0, _⟩ => rfl | ⟨1, _⟩ => rfl | ⟨2, _⟩ => rfl)
  have er : ∀ k : Fin 1024, ridx_main_v8 (ix3 a b e) k = ix2 e k := fun k =>
    funext fun ax => Fin.ext (by match ax with | ⟨0, _⟩ => rfl | ⟨1, _⟩ => rfl)
  have eb : idx_main_v9 (idx_main_v10 (ix3 a b e)) = ix1 e :=
    funext fun ax => Fin.ext (by match ax with | ⟨0, _⟩ => rfl)
  simp only [el, er, eb]
  rfl

/-- The gate at (a, b, e): softplus of that. -/
theorem gate_apply (a : Fin 2) (b : Fin 4096) (e : Fin 1024) :
    val_main_v12 (F := Ideal) x0 x1 x2 (ix3 a b e) = softplus (val_main_v11 (F := Ideal) x0 x1 x2 (ix3 a b e)) := by
  simp only [val_main_v12_apply, val_main_call0_v4_apply, val_main_call0_v3_apply, val_main_call0_v2_apply,
    val_main_call0_cst_apply, val_main_call0_v6_apply, val_main_call0_v5_apply, val_main_call0_v11_apply,
    val_main_call0_v1_apply, val_main_call0_v0_apply, val_main_call0_v10_apply, val_main_call0_v9_apply,
    val_main_call0_v8_apply, val_main_call0_v7_apply]
  exact softplus_host _

/-- The second projection with its bias, at (a, b, n). -/
theorem projB_apply (a : Fin 2) (b : Fin 4096) (n : Fin 16) :
    val_main_v3 (F := Ideal) x0 x3 x4 (ix3 a b n) = (∑ k : Fin 1024, x0 (ix3 a b k) * x3 (ix2 n k)) + x4 (ix1 n) := by
  rw [val_main_v3_apply, val_main_v0_apply, val_main_v2_apply, val_main_v1_apply]
  have el : ∀ k : Fin 1024, lidx_main_v0 (ix3 a b n) k = ix3 a b k := fun k =>
    funext fun ax => Fin.ext (by match ax with | ⟨0, _⟩ => rfl | ⟨1, _⟩ => rfl | ⟨2, _⟩ => rfl)
  have er : ∀ k : Fin 1024, ridx_main_v0 (ix3 a b n) k = ix2 n k := fun k =>
    funext fun ax => Fin.ext (by match ax with | ⟨0, _⟩ => rfl | ⟨1, _⟩ => rfl)
  have eb : idx_main_v1 (idx_main_v2 (ix3 a b n)) = ix1 n :=
    funext fun ax => Fin.ext (by match ax with | ⟨0, _⟩ => rfl)
  simp only [el, er, eb]
  rfl

/-- The third projection with its bias, at (a, b, n). -/
theorem projC_apply (a : Fin 2) (b : Fin 4096) (n : Fin 16) :
    val_main_v7 (F := Ideal) x0 x5 x6 (ix3 a b n) = (∑ k : Fin 1024, x0 (ix3 a b k) * x5 (ix2 n k)) + x6 (ix1 n) := by
  rw [val_main_v7_apply, val_main_v4_apply, val_main_v6_apply, val_main_v5_apply]
  have el : ∀ k : Fin 1024, lidx_main_v4 (ix3 a b n) k = ix3 a b k := fun k =>
    funext fun ax => Fin.ext (by match ax with | ⟨0, _⟩ => rfl | ⟨1, _⟩ => rfl | ⟨2, _⟩ => rfl)
  have er : ∀ k : Fin 1024, ridx_main_v4 (ix3 a b n) k = ix2 n k := fun k =>
    funext fun ax => Fin.ext (by match ax with | ⟨0, _⟩ => rfl | ⟨1, _⟩ => rfl)
  have eb : idx_main_v5 (idx_main_v6 (ix3 a b n)) = ix1 n :=
    funext fun ax => Fin.ext (by match ax with | ⟨0, _⟩ => rfl)
  simp only [el, er, eb]
  rfl

/-- The kept row sum, broadcast back, at (a, b, e): the sum over the 16 columns of the two projections' product. -/
theorem mix_apply (a : Fin 2) (b : Fin 4096) (e : Fin 1024) :
    val_main_v17 (F := Ideal) x0 x3 x4 x5 x6 (ix3 a b e)
      = ∑ n : Fin 16, val_main_v7 (F := Ideal) x0 x5 x6 (ix3 a b n) * val_main_v3 (F := Ideal) x0 x3 x4 (ix3 a b n) := by
  rw [val_main_v17_apply, val_main_v16_apply, val_main_v14_apply, val_main_cst_apply]
  have ei : ∀ n : Fin 16, idx_main_v14 (idx_main_v16 (idx_main_v17 (ix3 a b e))) n = ix3 a b n := fun n =>
    funext fun ax => Fin.ext (by match ax with | ⟨0, _⟩ => rfl | ⟨1, _⟩ => rfl | ⟨2, _⟩ => rfl)
  simp only [ei, val_main_v13_apply]
  show Ideal.ofBits .f32 0x00000000#32 + _ = _
  rw [Ideal.ofBits_zero_f32, zero_add]
  rfl

/-- THE REFERENCE'S RESULT is the result of Cell.lean. -/
theorem ref_eq (h1 : (⟨3, ![2, 4096, 1024]⟩ : Shape).ShapeCasts ⟨2, ![8192, 1024]⟩) (h2 : (⟨2, ![8192, 1024]⟩ : Shape).ShapeCasts ⟨3, ![2, 4096, 1024]⟩) :
    val_main_v18 (F := Ideal) x0 x1 x2 x3 x4 x5 x6 = result h1 h2 x0 x1 x2 x3 x4 x5 x6 := by
  funext i
  obtain ⟨a, b, e, rfl⟩ : ∃ (a : Fin 2) (b : Fin 4096) (e : Fin 1024), i = ix3 a b e := ⟨i 0, i 1, i 2, eq_ix3 i⟩
  rw [result_apply, val_main_v18_apply, val_main_v15_apply, gate_apply, pre_apply, mix_apply]
  simp only [projB_apply, projC_apply]
  rfl

end Cert.ReferenceIdeal.RefValue

end
-- ==== Proof.lean ====
/-
  The certificate of a gated projection kernel against its reference.

  Both programs compute, for activations x (2 x 4096 x 1024), weights W1 (1024 x 1024), W2, W3 (16 x 1024) and biases
  b1, b2, b3,

      y[a, b, e] = (x[a, b, e] * softplus (sum_k x[a, b, k] W1[e, k] + b1[e]))
                     * sum_n (sum_k x[a, b, k] W3[n, k] + b3[n]) * (sum_k x[a, b, k] W2[n, k] + b2[n]);

  the last argument is not used by either.  The kernel works on the flattened activations in 16 blocks of 512 rows,
  with the weights transposed beforehand and bf16 operands for its matrix products; over the extended reals a change
  of format is the identity and both programs add and multiply the same numbers in the same arrangement, so no
  algebraic law beyond reading each operation at an index is needed, and the precondition is never opened.

  Cell.lean states the function; Body.lean reads the kernel body on one block; Whole.lean assembles the blocks and the
  operations around the kernel; RefValue.lean reads the reference.  The three frames are the kernel programs' generated
  frames and the reference's generated run; the idealization rewrote nothing, so its soundness claim is trivial.
-/
import proofs.«138668_j25907242729655_1_alg».proof.Defs
import proofs.«138668_j25907242729655_1_alg».proof.Proof.Gen.Kernel
import proofs.«138668_j25907242729655_1_alg».proof.Proof.Gen.Kernel.Skeleton
import proofs.«138668_j25907242729655_1_alg».proof.Proof.Gen.Kernel.Launch
import proofs.«138668_j25907242729655_1_alg».proof.Proof.Gen.Kernel.Points
import proofs.«138668_j25907242729655_1_alg».proof.Proof.Gen.Kernel.Frame
import proofs.«138668_j25907242729655_1_alg».proof.Proof.Gen.KernelIdeal
import proofs.«138668_j25907242729655_1_alg».proof.Proof.Gen.KernelIdeal.Skeleton
import proofs.«138668_j25907242729655_1_alg».proof.Proof.Gen.KernelIdeal.Launch
import proofs.«138668_j25907242729655_1_alg».proof.Proof.Gen.KernelIdeal.Points
import proofs.«138668_j25907242729655_1_alg».proof.Proof.Gen.KernelIdeal.Frame
import proofs.«138668_j25907242729655_1_alg».proof.Proof.Gen.ReferenceIdeal
import proofs.«138668_j25907242729655_1_alg».proof.Proof.Gen.Pre_finite_inputs
import proofs.«138668_j25907242729655_1_alg».proof.Proof.Gen.ReferenceIdeal.Run
import proofs.«138668_j25907242729655_1_alg».proof.Proof.Gen.ReferenceIdeal.Read
import proofs.«138668_j25907242729655_1_alg».proof.Proof.Whole
import proofs.«138668_j25907242729655_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at the same function of
    the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, -⟩ := hagree c
  rw [Cert.ReferenceIdeal.Read.val_main_v18_eq,
    Cert.ReferenceIdeal.RefValue.ref_eq _ _ _ _ _ _ _ (by decide) (by decide), a0, a1, a2, a3, a4, a5, a6]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
